-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S32768x2048 .f32) (main_arg1 : FVec F S2048x2048 .f32) (main_arg2 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S2048x512 : Shape := ⟨2, ![2048, 512]⟩
abbrev S1x512 : Shape := ⟨2, ![1, 512]⟩
abbrev S512 : Shape := ⟨1, ![512]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S32768x2048, .f32⟩
  | .local _ .vmem, ⟨0, _⟩ => ⟨S2048x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S512x2048, .f32⟩
  | .local _ .vmem, ⟨6, _⟩ => ⟨S512x2048, .f32⟩
  | .local _ .vmem, ⟨7, _⟩ => ⟨S2048x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  transposes_S2048x2048_p1_0_S2048x2048 : S2048x2048.Transposes [1, 0] S2048x2048
  reduces_S2048x512_S512 : S2048x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  broadcasts_S1x2048_S512x2048 : S1x2048.Broadcasts S512x2048
  dot_S2048x2048_S2048x512_S2048x512_1_0_0_1_n_n_wf : DotDims.WF S2048x2048 S2048x512 S2048x512 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S32768x2048.size a
  hwx1_0 : ∀ i : grid1.Coords, EltTy.bits .f32 = 32 ∨ (Rect.block (s := S32768x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S32768x2048.size a
  hwx1_4 : ∀ i : grid1.Coords, EltTy.bits .f32 = 32 ∨ (Rect.block (s := S32768x2048) S512x2048.size (cc1_transform_4 i) (hinb1_4 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S2048x2048_S2048x2048_1_0 : S2048x2048.Transposes [1, 0] S2048x2048
  reducesTo_S2048x2048_S2048_d0 : S2048x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S1x2048_S32768x2048_0_1 : S1x2048.BroadcastsInDim S32768x2048 (![0, 1] : Fin 2 → Fin S32768x2048.rank)
  dot_S2048x2048_S2048x2048_S2048x2048_1_0_0_1_n_n_wf : DotDims.WF S2048x2048 S2048x2048 S2048x2048 [1] [0] [0] [1] [] []
  dot_S32768x2048_S2048x2048_S32768x2048_1_0_0_1_n_n_wf : DotDims.WF S32768x2048 S2048x2048 S32768x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf

class Facts : Prop extends Facts₀ where

variable [Facts]
-- ==== Proof.GramBody.lean ====
/-
  The first kernel region (the Gram / column-norm kernel, grid of 4 points), as a pipeline's proof data.
  At point t the body is handed all of P (window 0) and P's column block t (window 1, 512 columns) and leaves in
  the output block (window 2, the [1, 512] slice t of the rescaling row) the value of its one store: the
  body's arithmetic `k0_pay1` of the two input blocks. Windows 0 and 1 read ONE array, P: each holds half of
  the array's share, which is all a reader needs.
-/
import proofs.«172815_j51582557225235_1_alg».proof.Proof.Gen.KernelIdeal.Launch
import proofs.«172815_j51582557225235_1_alg».proof.Proof.Gen.KernelIdeal.Skeleton
import proofs.«172815_j51582557225235_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses: all of the P buffer, all of the column-block buffer, all of the output row block. -/
abbrev rP : Rect S2048x2048 := Rect.unit (s := S2048x2048) ![0, 0] S2048x2048.size inb_S2048x2048_S2048x2048_0_0
abbrev rCols : Rect S2048x512 := Rect.unit (s := S2048x512) ![0, 0] S2048x512.size inb_S2048x512_S2048x512_0_0
abbrev rOut : Rect S1x512 := Rect.unit (s := S1x512) ![0, 0] S1x512.size inb_S1x512_S1x512_0_0

/-- What the body leaves in the output block's buffer, from the two input blocks: its one store. -/
def out (x0 : Vec F S2048x2048 .f32) (x1 : Vec F S2048x512 .f32) : Vec F S1x512 .f32 :=
  View.canon [⟨rOut, k0_pay1 (View.ld x0 rP) (View.ld x1 rCols)⟩]

/-- The one store covers the output block. -/
theorem cover (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

set_option maxHeartbeats 1000000 in
/-- The kernel body on whole staging memrefs: the inputs' at contents `x0`, `x1`, the output's at anything; it ends with
    the inputs' as they were and the output's at `out x0 x1`. -/
theorem sound_kernel (c : Dev nD) (E : Set ℕ) (i : grid0.Coords)
    (arg1 : Memref sig .tc .vmem S2048x2048 .f32) (harg1 : arg1.IsWhole)
    (arg2 : Memref sig .tc .vmem S2048x512 .f32) (harg2 : arg2.IsWhole)
    (arg3 : Memref sig .tc .vmem S1x512 .f32) (harg3 : arg3.IsWhole)
    (x0 : Vec F S2048x2048 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__gram_kernel i arg1 harg1 arg2 harg2 arg3 harg3) K := by
  simp only [cc0__gram_kernel_eq_skeleton]; unfold cc0__gram_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of pipeline 0 on core `c`: the arrays as the region finds them; after the body at point `t` each input's
    buffer at its block and the output's at `out` of the input blocks; the invariant the scoped rest and the generator
    register, untouched; nothing owed; the two readers of P hold half of its share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is handed at point `t`: the invariant, what the core owes, and each window's current buffer, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two input buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Gram

end
-- ==== Proof.ScaledBody.lean ====
/-
  The second kernel region (the rescaled matmul, grid of 64 points), as a pipeline's proof data. At point t the body
  is handed x's row block t (window 0, 512 rows), all of P (window 1), the rescaling row d (window 2) and the bias row
  (window 3), and leaves in the output block (window 4, row block t of the result) the value of its one store: the
  body's arithmetic `k1_pay1` of the four input blocks.
-/
import proofs.«172815_j51582557225235_1_alg».proof.Proof.Gen.KernelIdeal.Launch
import proofs.«172815_j51582557225235_1_alg».proof.Proof.Gen.KernelIdeal.Skeleton
import proofs.«172815_j51582557225235_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Scaled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: all of the row-block buffer, all of the P buffer, all of a [1, 2048] row buffer. -/
abbrev rRows : Rect S512x2048 := Rect.unit (s := S512x2048) ![0, 0] S512x2048.size inb_S512x2048_S512x2048_0_0
abbrev rP : Rect S2048x2048 := Rect.unit (s := S2048x2048) ![0, 0] S2048x2048.size inb_S2048x2048_S2048x2048_0_0
abbrev rRow : Rect S1x2048 := Rect.unit (s := S1x2048) ![0, 0] S1x2048.size inb_S1x2048_S1x2048_0_0

/-- What the body leaves in the output block's buffer, from the four input blocks: its one store. -/
def out (x0 : Vec F S512x2048 .f32) (x1 : Vec F S2048x2048 .f32) (x2 x3 : Vec F S1x2048 .f32) : Vec F S512x2048 .f32 :=
  View.canon [⟨rRows, k1_pay1 (View.ld x0 rRows) (View.ld x1 rP) (View.ld x2 rRow) (View.ld x3 rRow)⟩]

/-- The one store covers the output block. -/
theorem cover (p0 : Vec F S512x2048 .f32) (y : S512x2048.Idx) :
    ∃ pc ∈ ([⟨rRows, p0⟩] : List (View.Piece (Elt F) S512x2048 .f32)), y ∈ pc.1.set :=
  View.cover_of_tiled [⟨rRows, p0⟩] S512x2048.size (by rfl) y

/-- The kernel body on whole staging memrefs: the inputs' at contents `x0 … x3`, the output's at anything; it ends with
    the inputs' as they were and the output's at `out x0 x1 x2 x3`. -/
theorem sound_kernel (c : Dev nD) (E : Set ℕ) (i : grid1.Coords)
    (arg1 : Memref sig .tc .vmem S512x2048 .f32) (harg1 : arg1.IsWhole)
    (arg2 : Memref sig .tc .vmem S2048x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S512x2048 .f32) (harg5 : arg5.IsWhole)
    (x0 : Vec F S512x2048 .f32) (x1 : Vec F S2048x2048 .f32) (x2 x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc1__matmul_kernel i arg1 harg1 arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The proof data of pipeline 1 on core `c`: the arrays as the region finds them; after the body at point `t` each input's
    buffer at its block and the output's at `out` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

/-- Each input's current staging buffer holds its block at every point, fetched there or not. -/
theorem before_0 (c : Dev nD) (t : Fin cfg1.N) (d) : (dat V c).before 0 t d = iblk V c 0 t := by
  exact ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t := by
  exact ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t := by
  exact ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t := by
  exact ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- What the body is handed at point `t`: the invariant, what the core owes, and each window's current buffer, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the four inputs' buffers hold their blocks, so the kernel's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := by
  intro t
  rw [bigSep_W1, bigSep_W1]
  exact sound_body V c t

end Cert.KernelIdeal.Scaled

end
-- ==== Proof.KernelRun.lean ====
/-
  The kernel program's run. @main is two kernel regions with one host reshape between them; each region is a
  pipeline over its windows, and the run is their composition: every weakly fair execution terminates, nothing faults,
  the result buffer ends at what the second region's write-backs leave, every argument ends as launched.
  The first region hands ONE array, P, to two of its windows (all of P, and P's column block of the grid point).
  Both only read it, so each holds half of the array's share: at the region's entry P's buffer, held whole, is split in
  two halves at the same contents, and at its exit the halves, still at P, are joined back. The second region's five
  arrays are distinct buffers and are taken out of, and put back into, the unscoped buffers as they stand.
  Between the items the unscoped buffers are: the launch memory; that with the rescaling row written; that with the
  bias reshaped to a row; that with the result written.
-/
import proofs.«172815_j51582557225235_1_alg».proof.Proof.GramBody
import proofs.«172815_j51582557225235_1_alg».proof.Proof.ScaledBody
import proofs.«172815_j51582557225235_1_alg».proof.Proof.Gen.KernelIdeal.Regions
import Idealize.ShloMosaic.Lib.Pipeline.RegionsLoop
import Idealize.ShloMosaic.Lib.Pipeline.Frame
import Idealize.ShloMosaic.Lib.Pipeline.Kit

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shared

-- the buffer contents the first region is entered with
variable (V : (c : Dev nD) → (b : Ref sig .tc) → Buf (Elt F) ((c : Thread nD τ).loc b))

/-! ## The first region's arrays: one buffer behind two windows -/

theorem share_0 (c : Dev nD) : (Gram.dat V c).share 0 = fullShare.left := rfl
theorem share_1 (c : Dev nD) : (Gram.dat V c).share 1 = fullShare.right := rfl
theorem share_2 (c : Dev nD) : (Gram.dat V c).share 2 = fullShare := rfl

theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_v0) ↦{fullShare} W main_v0)) := by
  unfold Pipeline.arrBufs
  rw [show Finset.univ.image (Pipeline.arrRef spec0) = {main_arg1, main_v0} from by decide]
  rw [bigSep_insert (by decide), bigSep_singleton]
  rfl

theorem arrays_eq (c : Dev nD) (G : (w : Fin cfg0.W) → Buf (Elt F) ((cfg0.win w).arr.view.loc (c : Thread nD τ))) :
    ((Gram.dat V c).arrays G : sProp 𝕄)
      = iprop((((c : Thread nD τ).loc main_arg1) ↦{fullShare.left} G 0) ∗ (((c : Thread nD τ).loc main_arg1) ↦{fullShare.right} G 1)
          ∗ (((c : Thread nD τ).loc main_v0) ↦{fullShare} G 2)) := by
  unfold Dat.arrays
  rw [bigSep_W0, share_0, share_1, share_2, (arr_whole0 0).set_eq_univ, (arr_whole0 2).set_eq_univ]

/-- ENTRY of the first region: P's buffer, held whole, is split between its two readers; the output row's buffer
    goes to the output window. -/
theorem gram_entry (c : Dev nD) :
    (unscopedBufs (Ix := Unit) (Name := ℕ) (U := UR sig nD τ) (Lvl := ℕ) c (V c) : sProp 𝕄)
      ⊢ iprop((Gram.dat V c).arrays ((Gram.dat V c).arrAt · 0) ∗ Pipeline.unscopedRest spec0 c (V c)) := by
  rw [Pipeline.unscopedBufs_split₀ (cfgs := cfgs) (p := 0) winFacts₀0.arr_unscoped c (V c)]
  refine sep_mono ?_ .rfl
  show (Pipeline.arrBufs (Ix := Unit) (Name := ℕ) (U := UR sig nD τ) (Lvl := ℕ) spec0 c (V c) : sProp 𝕄) ⊢ _
  rw [arrBufs_eq, arrays_eq]
  exact (sep_mono (pointsTo_share (PosShare.mem_left_op_right fullShare)).1 .rfl).trans sep_assoc.1

/-- EXIT of the first region: the two readers' halves of P's buffer, both still at P, rejoin; the output row's buffer
    holds what the write-backs left. Together with the untouched rest these are the core's unscoped buffers at any
    valuation that has the output row there and agrees with the entry contents elsewhere. -/
theorem gram_exit (c : Dev nD) (V' : (b : Ref sig .tc) → Buf (Elt F) ((c : Thread nD τ).loc b))
    (h1 : V' main_arg1 = V c main_arg1) (h0 : V' main_v0 = (Gram.dat V c).arrAt 2 cfg0.N)
    (hrest : ∀ b, b ∉ Finset.univ.image (Pipeline.arrRef spec0) → V' b = V c b) :
    iprop((Gram.dat V c).arrays ((Gram.dat V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ (cfgs := cfgs) (p := 0) winFacts₀0.arr_unscoped c V']
  refine sep_mono ?_ (Entails.of_eq ?_)
  · show _ ⊢ (Pipeline.arrBufs (Ix := Unit) (Name := ℕ) (U := UR sig nD τ) (Lvl := ℕ) spec0 c V' : sProp 𝕄)
    rw [arrBufs_eq, arrays_eq, h1, h0,
      show (Gram.dat V c).arrAt 0 cfg0.N = V c main_arg1 from ((Gram.dat V c).arrAt_in 0 rfl _).trans (Gram.A_eq V c 0),
      show (Gram.dat V c).arrAt 1 cfg0.N = V c main_arg1 from ((Gram.dat V c).arrAt_in 1 rfl _).trans (Gram.A_eq V c 1)]
    exact sep_assoc.2.trans (sep_mono (pointsTo_share (PosShare.mem_left_op_right fullShare)).2 .rfl)
  · unfold Pipeline.unscopedRest
    exact bigSep_congr fun b hb => by rw [hrest b (Finset.mem_sdiff.mp hb).2]

end Shared

/-! ## The buffers' contents between @main's items

@main is: the first region (writes the rescaling row `main_v0`), one host reshape (the bias as a row, `main_v1`), the
second region (writes the result `main_v2`). The contents of the unscoped buffers between the items are the
generated valuations `Gen.V0 … Gen.V3` at the contents the two regions leave. -/

variable (m : (ℓ : Loc nD τ sig) → Buf (Elt F) ℓ) (ρ : Dev nD → PrngReg)

/-- What the first region is entered with: the launch memory. -/
abbrev Vin0 : (c : Dev nD) → (b : Ref sig .tc) → Buf (Elt F) ((c : Thread nD τ).loc b) := fun c b => Gen.V0 m c b

/-- What the first region leaves in the rescaling row. -/
def dOut (c : Dev nD) : Buf (Elt F) ((c : Thread nD τ).loc main_v0) := (Gram.dat (Vin0 m) c).arrAt 2 cfg0.N

/-- The regions' leavings, first stage: the rescaling row named, anything else as launched. -/
def outsA : Gen.Outs (F := F) := fun _ r c => if h : r = main_v0 then h ▸ dOut m c else m ((c : Thread nD τ).loc r)

theorem outsA_v0 (c : Dev nD) : outsA m 1 main_v0 c = dOut m c := by
  unfold outsA; rw [dif_pos rfl]

/-- What the second region is entered with: the rescaling row written, then the bias reshaped. -/
abbrev Vin1 : (c : Dev nD) → (b : Ref sig .tc) → Buf (Elt F) ((c : Thread nD τ).loc b) := fun c b => Gen.V2 m (outsA m) c b

/-- What the second region leaves in the result. -/
def yOut (c : Dev nD) : Buf (Elt F) ((c : Thread nD τ).loc main_v2) := (Scaled.dat (Vin1 m) c).arrAt 4 cfg1.N

/-- The regions' leavings: the rescaling row and the result named. -/
def outs : Gen.Outs (F := F) := fun J r c => if h : r = main_v2 then h ▸ yOut m c else outsA m J r c

theorem outs_v0 (c : Dev nD) : outs m 1 main_v0 c = dOut m c := by
  unfold outs; rw [dif_neg (by decide)]; exact outsA_v0 m c
theorem outs_v2 (c : Dev nD) : outs m 3 main_v2 c = yOut m c := by
  unfold outs; rw [dif_pos rfl]

theorem V1_eq (c : Dev nD) : Gen.V1 m (outs m) c = Function.update (Gen.V0 m c) main_v0 (dOut m c) := by
  show Function.update (Gen.V0 m c) main_v0 (outs m 1 main_v0 c) = _
  rw [outs_v0]
theorem V1A_eq (c : Dev nD) : Gen.V1 m (outsA m) c = Function.update (Gen.V0 m c) main_v0 (dOut m c) := by
  show Function.update (Gen.V0 m c) main_v0 (outsA m 1 main_v0 c) = _
  rw [outsA_v0]
/-- The second region's entry contents are the same whichever stage names them. -/
theorem V2_eq (c : Dev nD) : Gen.V2 m (outs m) c = Gen.V2 m (outsA m) c :=
  congrArg (StableHlo.after hostOps1) ((V1_eq m c).trans (V1A_eq m c).symm)
theorem V3_eq (c : Dev nD) : Gen.V3 m (outs m) c = Function.update (Gen.V2 m (outsA m) c) main_v2 (yOut m c) := by
  show Function.update (Gen.V2 m (outs m) c) main_v2 (outs m 3 main_v2 c) = _
  rw [outs_v2, V2_eq]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Gram.dat (Vin0 m) c
  | ⟨1, _⟩ => fun c => Scaled.dat (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- The rest state between items, the same at every boundary. -/
abbrev E : Fin 3 → Dev nD → sProp 𝕄 := fun _ c => R c

/-- The last thread state without the debts: every unscoped buffer at the last contents, the generator register at
    some state. -/
abbrev Tₙ (c : Dev nD) : sProp 𝕄 :=
  iprop(StableHlo.held (c : Thread nD τ) (Pipeline.ucRefs τ sig) (Gen.V3 m (outs m) c) ∗ ∃ r, prngReg c r)

/-! ## The regions as segments -/

theorem V1_v0 (c : Dev nD) : Gen.V1 m (outs m) c main_v0 = (Gram.dat (Vin0 m) c).arrAt 2 cfg0.N := by
  rw [V1_eq, Function.update_self]; rfl

theorem V3_v2 (c : Dev nD) : Gen.V3 m (outs m) c main_v2 = yOut m c := by
  rw [V3_eq, Function.update_self]

/-- After the second region each of its arrays holds what the pipeline leaves: the inputs as entered, the result
    what the write-backs left. -/
theorem exit1 (c : Dev nD) (w : Fin cfg1.W) :
    (Scaled.dat (Vin1 m) c).arrAt w cfg1.N = Gen.V3 m (outs m) c (Pipeline.arrRef spec1 w) := by
  match w with
  | ⟨0, _⟩ => exact (((Scaled.dat (Vin1 m) c).arrAt_in 0 rfl _).trans (Scaled.A_eq (Vin1 m) c 0)).trans ((congrFun (V2_eq m c) _).symm.trans (Gen.V3_of m (outs m) c main_arg0 (by decide)).symm)
  | ⟨1, _⟩ => exact (((Scaled.dat (Vin1 m) c).arrAt_in 1 rfl _).trans (Scaled.A_eq (Vin1 m) c 1)).trans ((congrFun (V2_eq m c) _).symm.trans (Gen.V3_of m (outs m) c main_arg1 (by decide)).symm)
  | ⟨2, _⟩ => exact (((Scaled.dat (Vin1 m) c).arrAt_in 2 rfl _).trans (Scaled.A_eq (Vin1 m) c 2)).trans ((congrFun (V2_eq m c) _).symm.trans (Gen.V3_of m (outs m) c main_v0 (by decide)).symm)
  | ⟨3, _⟩ => exact (((Scaled.dat (Vin1 m) c).arrAt_in 3 rfl _).trans (Scaled.A_eq (Vin1 m) c 3)).trans ((congrFun (V2_eq m c) _).symm.trans (Gen.V3_of m (outs m) c main_v1 (by decide)).symm)
  | ⟨4, _⟩ => exact (V3_v2 m c).symm
  | ⟨_ + 5, h⟩ => exact absurd h (Nat.not_lt.2 (Nat.le_add_left _ _))

set_option backward.isDefEq.respectTransparency.types false in
/-- The FIRST REGION over the thread state: entered from every unscoped buffer at the launch contents, left with the
    rescaling row written. P's buffer is split between the two windows that read it and rejoined at the exit; the
    generator register goes into the invariant and comes back; nothing is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Gram.body_obligation (Vin0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs (Ix := Unit) (Name := ℕ) (U := UR sig nD τ) (Lvl := ℕ) c (Vin0 m c) : sProp 𝕄)
        ⊢ iprop((pdats m 0 c).arrays ((pdats m 0 c).arrAt · 0) ∗ Pipeline.unscopedRest spec0 c (Vin0 m c)) := gram_entry (Vin0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vin0 m c))
        ⊢ (unscopedBufs (Ix := Unit) (Name := ℕ) (U := UR sig nD τ) (Lvl := ℕ) c (fun b => Gen.V1 m (outs m) c b) : sProp 𝕄) :=
      gram_exit (Vin0 m) c (fun b => Gen.V1 m (outs m) c b)
      (Gen.V1_of m (outs m) c main_arg1 (by decide)) (V1_v0 m c)
      (fun b hb => Gen.V1_of m (outs m) c b fun h =>
        hb (Finset.mem_image.mpr ⟨2, Finset.mem_univ _, (List.mem_singleton.mp h).symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND REGION over the thread state: entered from every unscoped buffer with the rescaling row and the bias
    row in place, left with the result written. Its five arrays are distinct buffers, split out of the unscoped
    buffers and put back at the exit contents. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scaled.body_obligation (Vin1 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => Gen.V2 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V2 m (outs m) c b) fun w => (congrFun (V2_eq m c) _).symm
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V2 m (outs m) c b) (fun b => Gen.V3 m (outs m) c b) ((pdats m 1 c).arrAt · cfg1.N) (exit1 m c)
      (fun b hb => Gen.V3_of m (outs m) c b fun h =>
        hb (Finset.mem_image.mpr ⟨4, Finset.mem_univ _, (List.mem_singleton.mp h).symm⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds in the result buffer what the second region's write-backs left (`yOut`), and each
    argument as launched: @main is the first region, the bias reshape, the second region, each entered from what the
    one before it left. -/
theorem run_main : θ_run defs (onTc (τ := τ) (main (F := F))) ⟨m, fun _ => 0, ρ⟩ (fun r => ∀ c : Dev nD,
      r.2.mem ((c.tc : Thread nD τ).loc main_v2) = yOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v2) = yOut m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  -- the end: the result and each argument read off the last valuation
  unfold Tₙ StableHlo.held
  iintro ⟨⟨Hh, -⟩, HSI⟩
  ihave Hr := (pointsTo_read_all (Pipeline.ucRefs τ sig) (fun b => ((c : Thread nD τ).1, b)) (Gen.V3 m (outs m) c) s') $$ [Hh HSI]
  · isplitl [Hh] <;> iassumption
  icases Hr with ⟨%h, HSI⟩
  imodintro
  isplitr
  · ipureintro
    exact ⟨(h (Proc.devRef .tc main_v2) (Finset.mem_filter.mpr ⟨StableHlo.devRef_mem_tcRefs main_v2, by decide⟩)).trans (V3_v2 m c),
      (h (Proc.devRef .tc main_arg0) (Finset.mem_filter.mpr ⟨StableHlo.devRef_mem_tcRefs main_arg0, by decide⟩)).trans (Gen.V3_main_arg0 m (outs m) c),
      (h (Proc.devRef .tc main_arg1) (Finset.mem_filter.mpr ⟨StableHlo.devRef_mem_tcRefs main_arg1, by decide⟩)).trans (Gen.V3_main_arg1 m (outs m) c),
      (h (Proc.devRef .tc main_arg2) (Finset.mem_filter.mpr ⟨StableHlo.devRef_mem_tcRefs main_arg2, by decide⟩)).trans (Gen.V3_main_arg2 m (outs m) c)⟩
  · iexact HSI

end Cert.KernelIdeal.Run

end
-- ==== Proof.GramBodyBits.lean ====
/-
  The first kernel region (the Gram / column-norm kernel, grid of 4 points), as a pipeline's proof data.
  At point t the body is handed all of P (window 0) and P's column block t (window 1, 512 columns) and leaves in
  the output block (window 2, the [1, 512] slice t of the rescaling row) the value of its one store: the
  body's arithmetic `k0_pay1` of the two input blocks. Windows 0 and 1 read ONE array, P: each holds half of
  the array's share, which is all a reader needs.
-/
import proofs.«172815_j51582557225235_1_alg».proof.Proof.Gen.Kernel.Launch
import proofs.«172815_j51582557225235_1_alg».proof.Proof.Gen.Kernel.Skeleton
import proofs.«172815_j51582557225235_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses: all of the P buffer, all of the column-block buffer, all of the output row block. -/
abbrev rP : Rect S2048x2048 := Rect.unit (s := S2048x2048) ![0, 0] S2048x2048.size inb_S2048x2048_S2048x2048_0_0
abbrev rCols : Rect S2048x512 := Rect.unit (s := S2048x512) ![0, 0] S2048x512.size inb_S2048x512_S2048x512_0_0
abbrev rOut : Rect S1x512 := Rect.unit (s := S1x512) ![0, 0] S1x512.size inb_S1x512_S1x512_0_0

/-- What the body leaves in the output block's buffer, from the two input blocks: its one store. -/
def out (x0 : Vec F S2048x2048 .f32) (x1 : Vec F S2048x512 .f32) : Vec F S1x512 .f32 :=
  View.canon [⟨rOut, k0_pay1 (View.ld x0 rP) (View.ld x1 rCols)⟩]

/-- The one store covers the output block. -/
theorem cover (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

set_option maxHeartbeats 1000000 in
/-- The kernel body on whole staging memrefs: the inputs' at contents `x0`, `x1`, the output's at anything; it ends with
    the inputs' as they were and the output's at `out x0 x1`. -/
theorem sound_kernel (c : Dev nD) (E : Set ℕ) (i : grid0.Coords)
    (arg1 : Memref sig .tc .vmem S2048x2048 .f32) (harg1 : arg1.IsWhole)
    (arg2 : Memref sig .tc .vmem S2048x512 .f32) (harg2 : arg2.IsWhole)
    (arg3 : Memref sig .tc .vmem S1x512 .f32) (harg3 : arg3.IsWhole)
    (x0 : Vec F S2048x2048 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__gram_kernel i arg1 harg1 arg2 harg2 arg3 harg3) K := by
  simp only [cc0__gram_kernel_eq_skeleton]; unfold cc0__gram_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of pipeline 0 on core `c`: the arrays as the region finds them; after the body at point `t` each input's
    buffer at its block and the output's at `out` of the input blocks; the invariant the scoped rest and the generator
    register, untouched; nothing owed; the two readers of P hold half of its share each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is handed at point `t`: the invariant, what the core owes, and each window's current buffer, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two input buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Gram

end
-- ==== Proof.ScaledBodyBits.lean ====
/-
  The second kernel region (the rescaled matmul, grid of 64 points), as a pipeline's proof data. At point t the body
  is handed x's row block t (window 0, 512 rows), all of P (window 1), the rescaling row d (window 2) and the bias row
  (window 3), and leaves in the output block (window 4, row block t of the result) the value of its one store: the
  body's arithmetic `k1_pay1` of the four input blocks.
-/
import proofs.«172815_j51582557225235_1_alg».proof.Proof.Gen.Kernel.Launch
import proofs.«172815_j51582557225235_1_alg».proof.Proof.Gen.Kernel.Skeleton
import proofs.«172815_j51582557225235_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Scaled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: all of the row-block buffer, all of the P buffer, all of a [1, 2048] row buffer. -/
abbrev rRows : Rect S512x2048 := Rect.unit (s := S512x2048) ![0, 0] S512x2048.size inb_S512x2048_S512x2048_0_0
abbrev rP : Rect S2048x2048 := Rect.unit (s := S2048x2048) ![0, 0] S2048x2048.size inb_S2048x2048_S2048x2048_0_0
abbrev rRow : Rect S1x2048 := Rect.unit (s := S1x2048) ![0, 0] S1x2048.size inb_S1x2048_S1x2048_0_0

/-- What the body leaves in the output block's buffer, from the four input blocks: its one store. -/
def out (x0 : Vec F S512x2048 .f32) (x1 : Vec F S2048x2048 .f32) (x2 x3 : Vec F S1x2048 .f32) : Vec F S512x2048 .f32 :=
  View.canon [⟨rRows, k1_pay1 (View.ld x0 rRows) (View.ld x1 rP) (View.ld x2 rRow) (View.ld x3 rRow)⟩]

/-- The one store covers the output block. -/
theorem cover (p0 : Vec F S512x2048 .f32) (y : S512x2048.Idx) :
    ∃ pc ∈ ([⟨rRows, p0⟩] : List (View.Piece (Elt F) S512x2048 .f32)), y ∈ pc.1.set :=
  View.cover_of_tiled [⟨rRows, p0⟩] S512x2048.size (by rfl) y

/-- The kernel body on whole staging memrefs: the inputs' at contents `x0 … x3`, the output's at anything; it ends with
    the inputs' as they were and the output's at `out x0 x1 x2 x3`. -/
theorem sound_kernel (c : Dev nD) (E : Set ℕ) (i : grid1.Coords)
    (arg1 : Memref sig .tc .vmem S512x2048 .f32) (harg1 : arg1.IsWhole)
    (arg2 : Memref sig .tc .vmem S2048x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S512x2048 .f32) (harg5 : arg5.IsWhole)
    (x0 : Vec F S512x2048 .f32) (x1 : Vec F S2048x2048 .f32) (x2 x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out x0 x1 x2 x3)) -∗ K ⟨⟩))
      ⊢ wp frame (wpE (defs₀ (F := F)) Variants.none c none) E (cc1__matmul_kernel i arg1 harg1 arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The proof data of pipeline 1 on core `c`: the arrays as the region finds them; after the body at point `t` each input's
    buffer at its block and the output's at `out` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out (iblk V c 0 t) (iblk V c 1 t) (iblk V c 2 t) (iblk V c 3 t) := by dsimp only [dat]

/-- Each input's current staging buffer holds its block at every point, fetched there or not. -/
theorem before_0 (c : Dev nD) (t : Fin cfg1.N) (d) : (dat V c).before 0 t d = iblk V c 0 t := by
  exact ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t := by
  exact ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t := by
  exact ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t := by
  exact ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- What the body is handed at point `t`: the invariant, what the core owes, and each window's current buffer, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the four inputs' buffers hold their blocks, so the kernel's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := by
  intro t
  rw [bigSep_W1, bigSep_W1]
  exact sound_body V c t

end Cert.Kernel.Scaled

end
-- ==== Proof.KernelRunBits.lean ====
/-
  The kernel program's run. @main is two kernel regions with one host reshape between them; each region is a
  pipeline over its windows, and the run is their composition: every weakly fair execution terminates, nothing faults,
  the result buffer ends at what the second region's write-backs leave, every argument ends as launched.
  The first region hands ONE array, P, to two of its windows (all of P, and P's column block of the grid point).
  Both only read it, so each holds half of the array's share: at the region's entry P's buffer, held whole, is split in
  two halves at the same contents, and at its exit the halves, still at P, are joined back. The second region's five
  arrays are distinct buffers and are taken out of, and put back into, the unscoped buffers as they stand.
  Between the items the unscoped buffers are: the launch memory; that with the rescaling row written; that with the
  bias reshaped to a row; that with the result written.
-/
import proofs.«172815_j51582557225235_1_alg».proof.Proof.GramBodyBits
import proofs.«172815_j51582557225235_1_alg».proof.Proof.ScaledBodyBits
import proofs.«172815_j51582557225235_1_alg».proof.Proof.Gen.Kernel.Regions
import Idealize.ShloMosaic.Lib.Pipeline.RegionsLoop
import Idealize.ShloMosaic.Lib.Pipeline.Frame
import Idealize.ShloMosaic.Lib.Pipeline.Kit

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shared

-- the buffer contents the first region is entered with
variable (V : (c : Dev nD) → (b : Ref sig .tc) → Buf (Elt F) ((c : Thread nD τ).loc b))

/-! ## The first region's arrays: one buffer behind two windows -/

theorem share_0 (c : Dev nD) : (Gram.dat V c).share 0 = fullShare.left := rfl
theorem share_1 (c : Dev nD) : (Gram.dat V c).share 1 = fullShare.right := rfl
theorem share_2 (c : Dev nD) : (Gram.dat V c).share 2 = fullShare := rfl

theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_v0) ↦{fullShare} W main_v0)) := by
  unfold Pipeline.arrBufs
  rw [show Finset.univ.image (Pipeline.arrRef spec0) = {main_arg1, main_v0} from by decide]
  rw [bigSep_insert (by decide), bigSep_singleton]
  rfl

theorem arrays_eq (c : Dev nD) (G : (w : Fin cfg0.W) → Buf (Elt F) ((cfg0.win w).arr.view.loc (c : Thread nD τ))) :
    ((Gram.dat V c).arrays G : sProp 𝕄)
      = iprop((((c : Thread nD τ).loc main_arg1) ↦{fullShare.left} G 0) ∗ (((c : Thread nD τ).loc main_arg1) ↦{fullShare.right} G 1)
          ∗ (((c : Thread nD τ).loc main_v0) ↦{fullShare} G 2)) := by
  unfold Dat.arrays
  rw [bigSep_W0, share_0, share_1, share_2, (arr_whole0 0).set_eq_univ, (arr_whole0 2).set_eq_univ]

/-- ENTRY of the first region: P's buffer, held whole, is split between its two readers; the output row's buffer
    goes to the output window. -/
theorem gram_entry (c : Dev nD) :
    (unscopedBufs (Ix := Unit) (Name := ℕ) (U := UR sig nD τ) (Lvl := ℕ) c (V c) : sProp 𝕄)
      ⊢ iprop((Gram.dat V c).arrays ((Gram.dat V c).arrAt · 0) ∗ Pipeline.unscopedRest spec0 c (V c)) := by
  rw [Pipeline.unscopedBufs_split₀ (cfgs := cfgs) (p := 0) winFacts₀0.arr_unscoped c (V c)]
  refine sep_mono ?_ .rfl
  show (Pipeline.arrBufs (Ix := Unit) (Name := ℕ) (U := UR sig nD τ) (Lvl := ℕ) spec0 c (V c) : sProp 𝕄) ⊢ _
  rw [arrBufs_eq, arrays_eq]
  exact (sep_mono (pointsTo_share (PosShare.mem_left_op_right fullShare)).1 .rfl).trans sep_assoc.1

/-- EXIT of the first region: the two readers' halves of P's buffer, both still at P, rejoin; the output row's buffer
    holds what the write-backs left. Together with the untouched rest these are the core's unscoped buffers at any
    valuation that has the output row there and agrees with the entry contents elsewhere. -/
theorem gram_exit (c : Dev nD) (V' : (b : Ref sig .tc) → Buf (Elt F) ((c : Thread nD τ).loc b))
    (h1 : V' main_arg1 = V c main_arg1) (h0 : V' main_v0 = (Gram.dat V c).arrAt 2 cfg0.N)
    (hrest : ∀ b, b ∉ Finset.univ.image (Pipeline.arrRef spec0) → V' b = V c b) :
    iprop((Gram.dat V c).arrays ((Gram.dat V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ (cfgs := cfgs) (p := 0) winFacts₀0.arr_unscoped c V']
  refine sep_mono ?_ (Entails.of_eq ?_)
  · show _ ⊢ (Pipeline.arrBufs (Ix := Unit) (Name := ℕ) (U := UR sig nD τ) (Lvl := ℕ) spec0 c V' : sProp 𝕄)
    rw [arrBufs_eq, arrays_eq, h1, h0,
      show (Gram.dat V c).arrAt 0 cfg0.N = V c main_arg1 from ((Gram.dat V c).arrAt_in 0 rfl _).trans (Gram.A_eq V c 0),
      show (Gram.dat V c).arrAt 1 cfg0.N = V c main_arg1 from ((Gram.dat V c).arrAt_in 1 rfl _).trans (Gram.A_eq V c 1)]
    exact sep_assoc.2.trans (sep_mono (pointsTo_share (PosShare.mem_left_op_right fullShare)).2 .rfl)
  · unfold Pipeline.unscopedRest
    exact bigSep_congr fun b hb => by rw [hrest b (Finset.mem_sdiff.mp hb).2]

end Shared

/-! ## The buffers' contents between @main's items

@main is: the first region (writes the rescaling row `main_v0`), one host reshape (the bias as a row, `main_v1`), the
second region (writes the result `main_v2`). The contents of the unscoped buffers between the items are the
generated valuations `Gen.V0 … Gen.V3` at the contents the two regions leave. -/

variable (m : (ℓ : Loc nD τ sig) → Buf (Elt F) ℓ) (ρ : Dev nD → PrngReg)

/-- What the first region is entered with: the launch memory. -/
abbrev Vin0 : (c : Dev nD) → (b : Ref sig .tc) → Buf (Elt F) ((c : Thread nD τ).loc b) := fun c b => Gen.V0 m c b

/-- What the first region leaves in the rescaling row. -/
def dOut (c : Dev nD) : Buf (Elt F) ((c : Thread nD τ).loc main_v0) := (Gram.dat (Vin0 m) c).arrAt 2 cfg0.N

/-- The regions' leavings, first stage: the rescaling row named, anything else as launched. -/
def outsA : Gen.Outs (F := F) := fun _ r c => if h : r = main_v0 then h ▸ dOut m c else m ((c : Thread nD τ).loc r)

theorem outsA_v0 (c : Dev nD) : outsA m 1 main_v0 c = dOut m c := by
  unfold outsA; rw [dif_pos rfl]

/-- What the second region is entered with: the rescaling row written, then the bias reshaped. -/
abbrev Vin1 : (c : Dev nD) → (b : Ref sig .tc) → Buf (Elt F) ((c : Thread nD τ).loc b) := fun c b => Gen.V2 m (outsA m) c b

/-- What the second region leaves in the result. -/
def yOut (c : Dev nD) : Buf (Elt F) ((c : Thread nD τ).loc main_v2) := (Scaled.dat (Vin1 m) c).arrAt 4 cfg1.N

/-- The regions' leavings: the rescaling row and the result named. -/
def outs : Gen.Outs (F := F) := fun J r c => if h : r = main_v2 then h ▸ yOut m c else outsA m J r c

theorem outs_v0 (c : Dev nD) : outs m 1 main_v0 c = dOut m c := by
  unfold outs; rw [dif_neg (by decide)]; exact outsA_v0 m c
theorem outs_v2 (c : Dev nD) : outs m 3 main_v2 c = yOut m c := by
  unfold outs; rw [dif_pos rfl]

theorem V1_eq (c : Dev nD) : Gen.V1 m (outs m) c = Function.update (Gen.V0 m c) main_v0 (dOut m c) := by
  show Function.update (Gen.V0 m c) main_v0 (outs m 1 main_v0 c) = _
  rw [outs_v0]
theorem V1A_eq (c : Dev nD) : Gen.V1 m (outsA m) c = Function.update (Gen.V0 m c) main_v0 (dOut m c) := by
  show Function.update (Gen.V0 m c) main_v0 (outsA m 1 main_v0 c) = _
  rw [outsA_v0]
/-- The second region's entry contents are the same whichever stage names them. -/
theorem V2_eq (c : Dev nD) : Gen.V2 m (outs m) c = Gen.V2 m (outsA m) c :=
  congrArg (StableHlo.after hostOps1) ((V1_eq m c).trans (V1A_eq m c).symm)
theorem V3_eq (c : Dev nD) : Gen.V3 m (outs m) c = Function.update (Gen.V2 m (outsA m) c) main_v2 (yOut m c) := by
  show Function.update (Gen.V2 m (outs m) c) main_v2 (outs m 3 main_v2 c) = _
  rw [outs_v2, V2_eq]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Gram.dat (Vin0 m) c
  | ⟨1, _⟩ => fun c => Scaled.dat (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- The rest state between items, the same at every boundary. -/
abbrev E : Fin 3 → Dev nD → sProp 𝕄 := fun _ c => R c

/-- The last thread state without the debts: every unscoped buffer at the last contents, the generator register at
    some state. -/
abbrev Tₙ (c : Dev nD) : sProp 𝕄 :=
  iprop(StableHlo.held (c : Thread nD τ) (Pipeline.ucRefs τ sig) (Gen.V3 m (outs m) c) ∗ ∃ r, prngReg c r)

/-! ## The regions as segments -/

theorem V1_v0 (c : Dev nD) : Gen.V1 m (outs m) c main_v0 = (Gram.dat (Vin0 m) c).arrAt 2 cfg0.N := by
  rw [V1_eq, Function.update_self]; rfl

theorem V3_v2 (c : Dev nD) : Gen.V3 m (outs m) c main_v2 = yOut m c := by
  rw [V3_eq, Function.update_self]

/-- After the second region each of its arrays holds what the pipeline leaves: the inputs as entered, the result
    what the write-backs left. -/
theorem exit1 (c : Dev nD) (w : Fin cfg1.W) :
    (Scaled.dat (Vin1 m) c).arrAt w cfg1.N = Gen.V3 m (outs m) c (Pipeline.arrRef spec1 w) := by
  match w with
  | ⟨0, _⟩ => exact (((Scaled.dat (Vin1 m) c).arrAt_in 0 rfl _).trans (Scaled.A_eq (Vin1 m) c 0)).trans ((congrFun (V2_eq m c) _).symm.trans (Gen.V3_of m (outs m) c main_arg0 (by decide)).symm)
  | ⟨1, _⟩ => exact (((Scaled.dat (Vin1 m) c).arrAt_in 1 rfl _).trans (Scaled.A_eq (Vin1 m) c 1)).trans ((congrFun (V2_eq m c) _).symm.trans (Gen.V3_of m (outs m) c main_arg1 (by decide)).symm)
  | ⟨2, _⟩ => exact (((Scaled.dat (Vin1 m) c).arrAt_in 2 rfl _).trans (Scaled.A_eq (Vin1 m) c 2)).trans ((congrFun (V2_eq m c) _).symm.trans (Gen.V3_of m (outs m) c main_v0 (by decide)).symm)
  | ⟨3, _⟩ => exact (((Scaled.dat (Vin1 m) c).arrAt_in 3 rfl _).trans (Scaled.A_eq (Vin1 m) c 3)).trans ((congrFun (V2_eq m c) _).symm.trans (Gen.V3_of m (outs m) c main_v1 (by decide)).symm)
  | ⟨4, _⟩ => exact (V3_v2 m c).symm
  | ⟨_ + 5, h⟩ => exact absurd h (Nat.not_lt.2 (Nat.le_add_left _ _))

set_option backward.isDefEq.respectTransparency.types false in
/-- The FIRST REGION over the thread state: entered from every unscoped buffer at the launch contents, left with the
    rescaling row written. P's buffer is split between the two windows that read it and rejoined at the exit; the
    generator register goes into the invariant and comes back; nothing is owed; the kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (Gram.body_obligation (Vin0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs (Ix := Unit) (Name := ℕ) (U := UR sig nD τ) (Lvl := ℕ) c (Vin0 m c) : sProp 𝕄)
        ⊢ iprop((pdats m 0 c).arrays ((pdats m 0 c).arrAt · 0) ∗ Pipeline.unscopedRest spec0 c (Vin0 m c)) := gram_entry (Vin0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Vin0 m c))
        ⊢ (unscopedBufs (Ix := Unit) (Name := ℕ) (U := UR sig nD τ) (Lvl := ℕ) c (fun b => Gen.V1 m (outs m) c b) : sProp 𝕄) :=
      gram_exit (Vin0 m) c (fun b => Gen.V1 m (outs m) c b)
      (Gen.V1_of m (outs m) c main_arg1 (by decide)) (V1_v0 m c)
      (fun b hb => Gen.V1_of m (outs m) c b fun h =>
        hb (Finset.mem_image.mpr ⟨2, Finset.mem_univ _, (List.mem_singleton.mp h).symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND REGION over the thread state: entered from every unscoped buffer with the rescaling row and the bias
    row in place, left with the result written. Its five arrays are distinct buffers, split out of the unscoped
    buffers and put back at the exit contents. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scaled.body_obligation (Vin1 m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => Gen.V2 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V2 m (outs m) c b) fun w => (congrFun (V2_eq m c) _).symm
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V2 m (outs m) c b) (fun b => Gen.V3 m (outs m) c b) ((pdats m 1 c).arrAt · cfg1.N) (exit1 m c)
      (fun b hb => Gen.V3_of m (outs m) c b fun h =>
        hb (Finset.mem_image.mpr ⟨4, Finset.mem_univ _, (List.mem_singleton.mp h).symm⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds in the result buffer what the second region's write-backs left (`yOut`), and each
    argument as launched: @main is the first region, the bias reshape, the second region, each entered from what the
    one before it left. -/
theorem run_main : θ_run defs (onTc (τ := τ) (main (F := F))) ⟨m, fun _ => 0, ρ⟩ (fun r => ∀ c : Dev nD,
      r.2.mem ((c.tc : Thread nD τ).loc main_v2) = yOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v2) = yOut m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  -- the end: the result and each argument read off the last valuation
  unfold Tₙ StableHlo.held
  iintro ⟨⟨Hh, -⟩, HSI⟩
  ihave Hr := (pointsTo_read_all (Pipeline.ucRefs τ sig) (fun b => ((c : Thread nD τ).1, b)) (Gen.V3 m (outs m) c) s') $$ [Hh HSI]
  · isplitl [Hh] <;> iassumption
  icases Hr with ⟨%h, HSI⟩
  imodintro
  isplitr
  · ipureintro
    exact ⟨(h (Proc.devRef .tc main_v2) (Finset.mem_filter.mpr ⟨StableHlo.devRef_mem_tcRefs main_v2, by decide⟩)).trans (V3_v2 m c),
      (h (Proc.devRef .tc main_arg0) (Finset.mem_filter.mpr ⟨StableHlo.devRef_mem_tcRefs main_arg0, by decide⟩)).trans (Gen.V3_main_arg0 m (outs m) c),
      (h (Proc.devRef .tc main_arg1) (Finset.mem_filter.mpr ⟨StableHlo.devRef_mem_tcRefs main_arg1, by decide⟩)).trans (Gen.V3_main_arg1 m (outs m) c),
      (h (Proc.devRef .tc main_arg2) (Finset.mem_filter.mpr ⟨StableHlo.devRef_mem_tcRefs main_arg2, by decide⟩)).trans (Gen.V3_main_arg2 m (outs m) c)⟩
  · iexact HSI

end Cert.Kernel.Run

end
-- ==== Proof.Spec.lean ====
/-
  What both programs compute, as functions of the argument arrays over the extended reals, index by index.
  With G = PᵀP (G[a,k] = Σ_o P[o,a]·P[o,k]), the column norms s[k] = Σ_a |G[a,k]|, the rescaling
  d[k] = (s[k] + ε)^(-1/2), the result is  out[b,o] = Σ_k x[b,k]·(P[o,k]·d[k]) + bias[o].
-/
import Idealize.ShloMosaic.PureOps.Ideal
import Idealize.ShloMosaic.Lib.ValueIdx

noncomputable section

open scoped BigOperators

namespace Cert.Spec

open Idealize.ShloMosaic Idealize.ShloMosaic.ValueIdx

/-- The shapes of x, P, bias and of a [1, 2048] row. -/
abbrev SX : Shape := ⟨2, ![32768, 2048]⟩
abbrev SP : Shape := ⟨2, ![2048, 2048]⟩
abbrev SB : Shape := ⟨1, ![2048]⟩
abbrev SD : Shape := ⟨2, ![1, 2048]⟩

/-- ε, the f32 word both programs add to a column norm. -/
def eps : EReal := Ideal.ofBits .f32 0x2EDBE6FF#32

/-- The Gram matrix entry (PᵀP)[a,k] = Σ_o P[o,a]·P[o,k]. -/
def gram (P : SP.Idx → EReal) (a k : Fin 2048) : EReal := ∑ o : Fin 2048, P (ix2 o a) * P (ix2 o k)

/-- The column norm s[k] = Σ_a |(PᵀP)[a,k]| (|y| = max y (-y) on the extended reals). -/
def colNorm (P : SP.Idx → EReal) (k : Fin 2048) : EReal := ∑ a : Fin 2048, max (gram P a k) (-(gram P a k))

/-- The rescaling d[k] = (s[k] + ε)^(-1/2). -/
def scale (P : SP.Idx → EReal) (k : Fin 2048) : EReal := Ideal.rsqrt (colNorm P k + eps)

/-- The rescaling as the [1, 2048] row the first kernel writes. -/
def scaleRow (P : SP.Idx → EReal) : SD.Idx → EReal := fun j => scale P (j 1)

/-- x·(P∘d)ᵀ + b, with d and b given as [1, 2048] rows (what the second kernel is handed). -/
def affine (x : SX.Idx → EReal) (P : SP.Idx → EReal) (d b : SD.Idx → EReal) : SX.Idx → EReal :=
  fun i => (∑ k : Fin 2048, x (ix2 (i 0) k) * (P (ix2 (i 1) k) * d (ix2 (0 : Fin 1) k))) + b (ix2 (0 : Fin 1) (i 1))

/-- The bias as a [1, 2048] row. -/
def biasRow (bias : SB.Idx → EReal) : SD.Idx → EReal := fun j => bias (ix1 (j 1))

/-- The whole result: out[b,o] = Σ_k x[b,k]·(P[o,k]·d[k]) + bias[o]. -/
def result (x : SX.Idx → EReal) (P : SP.Idx → EReal) (bias : SB.Idx → EReal) : SX.Idx → EReal :=
  affine x P (scaleRow P) (biasRow bias)

end Cert.Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.GramValue.lean ====
/-
  The first kernel region's result array at the ideal instance. Point t of the 4 writes the [1, 512] block t of the
  rescaling row; entry (0, j) of that block is (Σ_a |Σ_o P[o,a]·P[o, 512·t + j]| + ε)^(-1/2): the body's matmul of Pᵀ with
  P's column block into a zero accumulator is the Gram sum, its lane sum over axis 0 from a zero word the column norm.
  The four blocks tile the row, so the array after the region is the rescaling row of P, index by index.
-/
import proofs.«172815_j51582557225235_1_alg».proof.Proof.GramBody
import proofs.«172815_j51582557225235_1_alg».proof.Proof.Spec
import proofs.«172815_j51582557225235_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GramValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The body's arithmetic at an index -/

/-- The Gram entry: the matmul of Pᵀ with a column block into the zero accumulator is, at (a, q), Σ_o P[o,a]·cols[o,q]
    (the zero word is 0; the transpose read at (a, o) is P at (o, a)). -/
theorem gram_entry (x0 : FVec Ideal S2048x2048 .f32) (x1 : FVec Ideal S2048x512 .f32) (a : Fin 2048) (q : Fin 512) :
    matmul (F := Ideal) dot_S2048x2048_S2048x512_S2048x512_1_0_0_1_n_n (some .fp32)
        (transpose S2048x2048 [1, 0] x0 transposes_S2048x2048_p1_0_S2048x2048) x1
        (constant (F := Ideal) S2048x512 .f32 0x00000000#32) (ix2 a q)
      = ∑ o : Fin 2048, x0 (ix2 o a) * x1 (ix2 o q) := by
  refine (Ideal.matmul_constant_zero_apply dot_S2048x2048_S2048x512_S2048x512_1_0_0_1_n_n (some .fp32) _ x1 (ix2 a q)).trans ?_
  refine (PlainDot.sum_eq dot_S2048x2048_S2048x512_S2048x512_1_0_0_1_n_n rfl rfl rfl rfl rfl rfl _ x1 a q).trans ?_
  refine Finset.sum_congr rfl fun o _ => ?_
  exact congrArg (· * x1 (ix2 o q)) (transpose_ix2_apply x0 transposes_S2048x2048_p1_0_S2048x2048 a o)

/-- The lane sum over axis 0 of a [2048, 512] array from the zero word is, at column q, Σ_a y[a,q]. -/
theorem lane_sum (y : FVec Ideal S2048x512 .f32) (q : Fin 512) :
    multiReduction (F := Ideal) .add [0] S512 y 0x00000000#32 reduces_S2048x512_S512 (.inl rfl) rfl (ix1 q)
      = ∑ a : Fin 2048, y (ix2 a q) := by
  refine (Ideal.multiReduction_add_single y _ reduces_S2048x512_S512 (.inl rfl) rfl (ix1 q)).trans ?_
  refine Finset.sum_congr rfl fun a _ => ?_
  refine congrArg y (funext fun d => Fin.ext ?_)
  match d with
  | ⟨0, _⟩ => rfl
  | ⟨1, _⟩ => rfl

/-- Entry (p, q) of the body's payload: (Σ_a |Σ_o P[o,a]·cols[o,q]| + ε)^(-1/2), with |y| = max y (-y). -/
theorem pay_entry (x0 : Vec Ideal S2048x2048 .f32) (x1 : Vec Ideal S2048x512 .f32) (p : Fin 1) (q : Fin 512) :
    k0_pay1 (F := Ideal) x0 x1 (ix2 p q)
      = Ideal.rsqrt ((∑ a : Fin 2048, max (∑ o : Fin 2048, x0 (ix2 o a) * x1 (ix2 o q)) (-(∑ o : Fin 2048, x0 (ix2 o a) * x1 (ix2 o q)))) + Cert.Spec.eps) := by
  unfold k0_pay1
  dsimp only
  refine congrArg Ideal.rsqrt (congrArg₂ (· + ·) ?_ rfl)
  refine (shapeCast_a_1a_apply _ shapeCasts_S512_S1x512 p q).trans ?_
  refine (lane_sum _ q).trans ?_
  refine Finset.sum_congr rfl fun a _ => ?_
  exact congrArg (fun y : EReal => max y (-y)) (gram_entry x0 x1 a q)

/-- The payload's entry j when the first block is P whole and the second block's column j is P's column k: the
    rescaling d[k]. -/
theorem scale_entry (x0 : Vec Ideal S2048x2048 .f32) (x1 : Vec Ideal S2048x512 .f32) (P : Cert.Spec.SP.Idx → EReal)
    (j : S1x512.Idx) (k : Fin 2048)
    (h0 : ∀ o a : Fin 2048, x0 (ix2 o a) = P (ix2 o a)) (h1 : ∀ o : Fin 2048, x1 (ix2 o (j 1)) = P (ix2 o k)) :
    k0_pay1 (F := Ideal) x0 x1 j = Cert.Spec.scale P k := by
  obtain ⟨p, q, rfl⟩ : ∃ (p : Fin 1) (q : Fin 512), j = ix2 p q := ⟨j 0, j 1, eq_ix2 j⟩
  have h1' : ∀ o : Fin 2048, x1 (ix2 o q) = P (ix2 o k) := h1
  refine (pay_entry x0 x1 p q).trans ?_
  unfold Cert.Spec.scale Cert.Spec.colNorm Cert.Spec.gram
  simp only [h0, h1']

/-! ## From the four blocks to the row -/

-- the TensorCore's buffer contents when the region is entered, at the ideal instance
variable (V : (c : Dev nD) → (b : Ref sig .tc) → Buf (Elt Ideal) ((c : Thread nD τ).loc b))

/-- The body's accesses start at offsets (0, 0). -/
theorem hz : (![0, 0] : Fin 2 → Nat) = fun _ => 0 := funext fun a => by fin_cases a <;> rfl

/-- The printed index maps, decided over the grid: P's block is block (0, 0), the column block and the output block
    at point t are blocks (0, t). -/
theorem block_indices : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point t writes back is block t of the rescaling row of P. -/
theorem flushed_eq (c : Dev nD) (t : Fin cfg0.N) :
    (Gram.dat V c).flushed 2 t = ((cfg0.win 2).blk t).view.read (Elt Ideal) (Cert.Spec.scaleRow (V c main_arg1)) := by
  show (cfg0.win 2).cut (grid0.coords t) ((Gram.dat V c).after 2 t) = _
  rw [Gram.after_2]
  unfold Gram.out
  rw [View.canon_unit_zero hz]
  simp only [View.ld_unit_zero (S := S2048x2048) hz, View.ld_unit_zero (S := S2048x512) hz]
  obtain ⟨e00, e01, e10, e11, e20, e21⟩ := block_indices t
  funext j
  show k0_pay1 (F := Ideal) (Gram.iblk V c 0 t) (Gram.iblk V c 1 t) j
      = Cert.Spec.scale (V c main_arg1) ((((cfg0.win 2).blk t).view.emb j) 1)
  refine scale_entry (Gram.iblk V c 0 t) (Gram.iblk V c 1 t) (V c main_arg1) j _ (fun o a => ?_) (fun o => ?_)
  · show V c main_arg1 (((cfg0.win 0).blk t).view.emb (ix2 o a)) = V c main_arg1 (ix2 o a)
    refine congrArg (V c main_arg1) (funext fun d => Fin.ext ?_)
    match d with
    | ⟨0, _⟩ => show win0_0.index t (0 : Fin 2) * 2048 + 1 * o.val = o.val; omega
    | ⟨1, _⟩ => show win0_0.index t (1 : Fin 2) * 2048 + 1 * a.val = a.val; omega
  · show V c main_arg1 (((cfg0.win 1).blk t).view.emb (ix2 o (j 1))) = V c main_arg1 (ix2 o ((((cfg0.win 2).blk t).view.emb j) 1))
    refine congrArg (V c main_arg1) (funext fun d => Fin.ext ?_)
    match d with
    | ⟨0, _⟩ => show win0_1.index t (0 : Fin 2) * 2048 + 1 * o.val = o.val; omega
    | ⟨1, _⟩ => show win0_1.index t (1 : Fin 2) * 512 + 1 * (j 1).val = win0_2.index t (1 : Fin 2) * 512 + 1 * (j 1).val; omega

/-- An index of the row is in point t's block iff each coordinate is in the block's range on its axis. -/
theorem mem_block (t : Fin cfg0.N) (i : S1x2048.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v0).slice (win0_2.rect t)).set ↔ _
  rw [View.set_slice_whole, Rect.mem_set_unit]
  exact Iff.rfl

/-- After the first region the rescaling array holds `d[k] = (Σ_a |(PᵀP)[a,k]| + ε)^(-1/2)` at (0, k), for P the
    contents of `main_arg1` when the region is entered. -/
theorem scale_row (c : Dev nD) :
    ((Gram.dat V c).arrAt 2 cfg0.N : S1x2048.Idx → EReal) = Cert.Spec.scaleRow (V c main_arg1) :=
  (Gram.dat V c).arrAt_eq_of_cover 2 (Cert.Spec.scaleRow (V c main_arg1)) (fun t _ => flushed_eq V c t) fun i => by
    have hi0 : (i 0).val < 1 := (i 0).isLt
    have hi1 : (i 1).val < 2048 := (i 1).isLt
    obtain ⟨t, ht⟩ : ∃ t : Fin cfg0.N, t.val = (i 1).val / 512 :=
      ⟨⟨(i 1).val / 512, by show _ < grid0.N; rw [N_0]; omega⟩, rfl⟩
    obtain ⟨-, -, -, -, e20, e21⟩ := block_indices t
    refine ⟨t, flush0_2 t, ?_⟩
    rw [mem_block]
    intro a
    match a with
    | ⟨0, _⟩ => show win0_2.index t (0 : Fin 2) * 1 ≤ (i 0).val ∧ (i 0).val < win0_2.index t (0 : Fin 2) * 1 + 1; omega
    | ⟨1, _⟩ => show win0_2.index t (1 : Fin 2) * 512 ≤ (i 1).val ∧ (i 1).val < win0_2.index t (1 : Fin 2) * 512 + 512; omega

end Cert.KernelIdeal.GramValue

end
-- ==== Proof.ScaledValue.lean ====
/-
  The second kernel region's result array at the ideal instance. Point t of the 64 writes row block t (512 rows) of the
  result; entry (r, o) of that block is Σ_k x[512·t + r, k]·(P[o,k]·d[0,k]) + b[0,o]: the changes of float format are
  the identity, the body's matmul of the row block with the transposed rescaled P into a zero accumulator is that sum.
  The 64 blocks tile the result, so the array after the region is x·(P∘d)ᵀ + b, index by index.
-/
import proofs.«172815_j51582557225235_1_alg».proof.Proof.ScaledBody
import proofs.«172815_j51582557225235_1_alg».proof.Proof.Spec
import proofs.«172815_j51582557225235_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ScaledValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The zero offsets of a whole-buffer access, however they are spelt. -/
theorem zero_offsets : (![0, 0] : Fin 2 → Nat) = fun _ => 0 := funext fun a => by fin_cases a <;> rfl

/-- The body's arithmetic at entry (p, q) of the output block: the row block's row p against row q of P rescaled
    entry by entry by the row d, summed over the 2048 columns, plus the bias row's entry q. -/
theorem rescaled_product_apply (x0 : Vec Ideal S512x2048 .f32) (x1 : Vec Ideal S2048x2048 .f32)
    (x2 x3 : Vec Ideal S1x2048 .f32) (p : Fin 512) (q : Fin 2048) :
    (k1_pay1 x0 x1 x2 x3 : S512x2048.Idx → EReal) (ix2 p q)
      = (∑ k : Fin 2048, x0 (ix2 p k) * (x1 (ix2 q k) * x2 (ix2 (0 : Fin 1) k))) + x3 (ix2 (0 : Fin 1) q) := by
  unfold k1_pay1
  dsimp only
  refine (addf_apply _ _ _).trans ?_
  refine congrArg₂ (fun a b : EReal => a + b) ?_ ?_
  · refine (Ideal.matmul_constant_zero_apply _ none _ _ (ix2 p q)).trans ?_
    refine (PlainDot.sum_eq dot_S512x2048_S2048x2048_S512x2048_1_0_0_1_n_n rfl rfl rfl rfl rfl rfl _ _ p q).trans ?_
    refine Finset.sum_congr rfl fun k _ => ?_
    refine congrArg₂ (fun a b : EReal => a * b) rfl ?_
    refine (transpose_ix2_apply _ _ k q).trans ?_
    refine congrArg₂ (fun a b : EReal => a * b) rfl ?_
    rw [shapeCast_self]
    exact broadcastTo_1b_ab_apply _ _ q k
  · rw [shapeCast_self]
    exact broadcastTo_1b_ab_apply _ _ p q

/-- Entry y of the body's result when its first operand holds rows 512·n … 512·n + 511 of an array X: the entry of
    x·(P∘d)ᵀ + b at row 512·n + y₀ and column y₁. -/
theorem row_block_entry (X : S32768x2048.Idx → EReal) (P : S2048x2048.Idx → EReal) (d b : S1x2048.Idx → EReal)
    (x0 : Vec Ideal S512x2048 .f32) (x1 : Vec Ideal S2048x2048 .f32) (x2 x3 : Vec Ideal S1x2048 .f32) (n : ℕ)
    (h0 : ∀ (y : S512x2048.Idx) (i : S32768x2048.Idx), (i 0).val = 512 * n + (y 0).val → (i 1).val = (y 1).val → x0 y = X i)
    (h1 : x1 = P) (h2 : x2 = d) (h3 : x3 = b)
    (y : S512x2048.Idx) (i : S32768x2048.Idx) (hi0 : (i 0).val = 512 * n + (y 0).val) (hi1 : (i 1).val = (y 1).val) :
    (k1_pay1 x0 x1 x2 x3 : S512x2048.Idx → EReal) y = Cert.Spec.affine X P d b i := by
  subst h1 h2 h3
  obtain ⟨p, q, rfl⟩ : ∃ (p : Fin 512) (q : Fin 2048), y = ix2 p q := ⟨y 0, y 1, eq_ix2 y⟩
  rw [rescaled_product_apply]
  unfold Cert.Spec.affine
  have hq : i 1 = q := Fin.ext hi1
  rw [hq]
  refine congrArg (fun s : EReal => s + x3 (ix2 (0 : Fin 1) q)) (Finset.sum_congr rfl fun k _ => ?_)
  rw [h0 (ix2 p k) (ix2 (i 0) k) hi0 rfl]

-- the TensorCore's buffer contents when the region is entered, at the ideal instance
variable (V : (c : Dev nD) → (b : Ref sig .tc) → Buf (Elt Ideal) ((c : Thread nD τ).loc b))

/-- The printed index maps over the grid: at point t the window of x and the output window are at block (t, 0); P, the
    row d and the bias row are each one block, at (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of x at point t is rows 512·t … 512·t + 511 of x. -/
theorem x_block_apply (c : Dev nD) (t : Fin cfg1.N) (y : S512x2048.Idx) (i : S32768x2048.Idx)
    (h0 : (i 0).val = 512 * t.val + (y 0).val) (h1 : (i 1).val = (y 1).val) :
    (Scaled.iblk V c 0 t : Vec Ideal S512x2048 .f32) y = (V c main_arg0 : S32768x2048.Idx → EReal) i := by
  obtain ⟨e0, e1, -⟩ := block_indices t
  unfold Scaled.iblk
  rw [View.read_apply]
  show V c main_arg0 _ = V c main_arg0 _
  congr 1
  funext a
  apply Fin.ext
  match a with
  | ⟨0, _⟩ => show win1_0.index t 0 * 512 + 1 * (y 0).val = (i 0).val; rw [e0, h0]; omega
  | ⟨1, _⟩ => show win1_0.index t 1 * 2048 + 1 * (y 1).val = (i 1).val; rw [e1, h1]; omega

/-- The block of P at every point is all of P. -/
theorem P_block_eq (c : Dev nD) (t : Fin cfg1.N) :
    (Scaled.iblk V c 1 t : Vec Ideal S2048x2048 .f32) = (V c main_arg1 : S2048x2048.Idx → EReal) := by
  obtain ⟨-, -, e0, e1, -⟩ := block_indices t
  funext y
  unfold Scaled.iblk
  rw [View.read_apply]
  show V c main_arg1 _ = V c main_arg1 _
  congr 1
  funext a
  apply Fin.ext
  match a with
  | ⟨0, _⟩ => show win1_1.index t 0 * 2048 + 1 * (y 0).val = (y 0).val; rw [e0]; omega
  | ⟨1, _⟩ => show win1_1.index t 1 * 2048 + 1 * (y 1).val = (y 1).val; rw [e1]; omega

/-- The block of the rescaling row at every point is all of it. -/
theorem d_block_eq (c : Dev nD) (t : Fin cfg1.N) :
    (Scaled.iblk V c 2 t : Vec Ideal S1x2048 .f32) = (V c main_v0 : S1x2048.Idx → EReal) := by
  obtain ⟨-, -, -, -, e0, e1, -⟩ := block_indices t
  funext y
  unfold Scaled.iblk
  rw [View.read_apply]
  show V c main_v0 _ = V c main_v0 _
  congr 1
  funext a
  apply Fin.ext
  match a with
  | ⟨0, _⟩ => show win1_2.index t 0 * 1 + 1 * (y 0).val = (y 0).val; rw [e0]; omega
  | ⟨1, _⟩ => show win1_2.index t 1 * 2048 + 1 * (y 1).val = (y 1).val; rw [e1]; omega

/-- The block of the bias row at every point is all of it. -/
theorem bias_block_eq (c : Dev nD) (t : Fin cfg1.N) :
    (Scaled.iblk V c 3 t : Vec Ideal S1x2048 .f32) = (V c main_v1 : S1x2048.Idx → EReal) := by
  obtain ⟨-, -, -, -, -, -, e0, e1, -⟩ := block_indices t
  funext y
  unfold Scaled.iblk
  rw [View.read_apply]
  show V c main_v1 _ = V c main_v1 _
  congr 1
  funext a
  apply Fin.ext
  match a with
  | ⟨0, _⟩ => show win1_3.index t 0 * 1 + 1 * (y 0).val = (y 0).val; rw [e0]; omega
  | ⟨1, _⟩ => show win1_3.index t 1 * 2048 + 1 * (y 1).val = (y 1).val; rw [e1]; omega

/-- What point t writes back is row block t of x·(P∘d)ᵀ + b of the arrays as the region finds them. -/
theorem row_block_eq (c : Dev nD) (t : Fin cfg1.N) :
    (Scaled.dat V c).flushed 4 t = ((cfg1.win 4).blk t).view.read (Elt Ideal)
      (Cert.Spec.affine (V c main_arg0) (V c main_arg1) (V c main_v0) (V c main_v1)) := by
  show (cfg1.win 4).cut (grid1.coords t) ((Scaled.dat V c).after 4 t) = _
  rw [Scaled.after_4]
  unfold Scaled.out
  rw [View.canon_unit_zero zero_offsets]
  simp only [View.ld_unit_zero (S := S512x2048) zero_offsets, View.ld_unit_zero (S := S2048x2048) zero_offsets,
    View.ld_unit_zero (S := S1x2048) zero_offsets]
  funext j
  obtain ⟨-, -, -, -, -, -, -, -, e0, e1⟩ := block_indices t
  rw [View.read_apply]
  refine row_block_entry (V c main_arg0) (V c main_arg1) (V c main_v0) (V c main_v1)
    (Scaled.iblk V c 0 t) (Scaled.iblk V c 1 t) (Scaled.iblk V c 2 t) (Scaled.iblk V c 3 t) t.val
    (fun y i => x_block_apply V c t y i) (P_block_eq V c t) (d_block_eq V c t) (bias_block_eq V c t)
    ((win1 4).xinj (grid1.coords t) j) (((cfg1.win 4).blk t).view.emb j) ?_ ?_
  · show win1_4.index t 0 * 512 + 1 * (j 0).val = 512 * t.val + (j 0).val
    rw [e0]; omega
  · show win1_4.index t 1 * 2048 + 1 * (j 1).val = (j 1).val
    rw [e1]; omega

/-- Every entry of the result is in some point's block: row r is in row block r / 512. -/
theorem row_blocks_cover (i : S32768x2048.Idx) :
    ∃ t : Fin cfg1.N, (cfg1.win 4).flush t = true ∧ i ∈ ((cfg1.win 4).blk t).view.set := by
  have h0 : (i 0).val < 32768 := (i 0).isLt
  have h1 : (i 1).val < 2048 := (i 1).isLt
  have hN : cfg1.N = 64 := N_1
  obtain ⟨t, ht⟩ : ∃ t : Fin cfg1.N, t.val = (i 0).val / 512 := ⟨⟨(i 0).val / 512, by rw [hN]; omega⟩, rfl⟩
  obtain ⟨-, -, -, -, -, -, -, -, e0, e1⟩ := block_indices t
  refine ⟨t, flush1_4 t, ?_⟩
  show i ∈ ((View.whole main_v2).slice (win1_4.rect t)).set
  rw [View.set_slice_whole, Rect.mem_set_unit]
  intro a
  match a with
  | ⟨0, _⟩ =>
    show win1_4.index t 0 * 512 ≤ (i 0).val ∧ (i 0).val < win1_4.index t 0 * 512 + 512
    rw [e0, ht]; omega
  | ⟨1, _⟩ =>
    show win1_4.index t 1 * 2048 ≤ (i 1).val ∧ (i 1).val < win1_4.index t 1 * 2048 + 2048
    rw [e1]; omega

/-- After the second region the result array holds `Σ_k x[b,k]·(P[o,k]·d[0,k]) + bias2d[0,o]` at (b, o), for x, P, d, bias2d
    the contents of `main_arg0`, `main_arg1`, `main_v0`, `main_v1` when the region is entered. -/
theorem affine_rows (c : Dev nD) :
    ((Scaled.dat V c).arrAt 4 cfg1.N : S32768x2048.Idx → EReal)
      = Cert.Spec.affine (V c main_arg0) (V c main_arg1) (V c main_v0) (V c main_v1) :=
  (Scaled.dat V c).arrAt_eq_of_cover 4 (Cert.Spec.affine (V c main_arg0) (V c main_arg1) (V c main_v0) (V c main_v1))
    (fun t _ => row_block_eq V c t) row_blocks_cover

end Cert.KernelIdeal.ScaledValue

end
-- ==== Proof.KernelValue.lean ====
/-
  What the kernel program leaves in its result buffer, at the ideal instance, is the specification's result of the
  three argument arrays. The second region leaves x·(P∘d)ᵀ + b of the arrays it was entered with; of those, x and P
  are the arguments as launched (nothing before the region writes them), d is what the first region left, the
  rescaling row of P, and b is the host's reshape of the bias to a [1, 2048] row, which reads the bias at the second
  coordinate.
-/
import proofs.«172815_j51582557225235_1_alg».proof.Proof.KernelRun
import proofs.«172815_j51582557225235_1_alg».proof.Proof.GramValue
import proofs.«172815_j51582557225235_1_alg».proof.Proof.ScaledValue
import proofs.«172815_j51582557225235_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.KernelValue

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The bias row the second region is entered with is the host's reshape of the launched bias: at (0, o) it reads
    the bias at o. -/
theorem bias_row (c : Dev nD) :
    (Run.Vin1 m c main_v1 : S1x2048.Idx → EReal) = Cert.Spec.biasRow (m ((c.tc : Thread nD τ).loc main_arg2)) := by
  have e : (Run.Vin1 m c main_v1 : S1x2048.Idx → EReal)
      = shapeCast S1x2048 (m ((c.tc : Thread nD τ).loc main_arg2)) shapeCasts_S2048_S1x2048 := by
    show StableHlo.after hostOps1 _ (Proc.devRef .tc main_v1) = _
    after_results
    rw [show Gen.V1 m (Run.outsA m) c main_arg2 = Gen.V0 m c main_arg2 from Gen.V1_of m (Run.outsA m) c main_arg2 (by decide)]
    rfl
  rw [e]
  funext j
  rw [shapeCast_addUnit_apply]
  unfold Cert.Spec.biasRow
  congr 1
  exact funext fun a => match a with | ⟨0, _⟩ => rfl

/-- x as the second region is entered with it is x as launched: nothing before the region writes it. -/
theorem x_eq (c : Dev nD) : Run.Vin1 m c main_arg0 = m ((c.tc : Thread nD τ).loc main_arg0) :=
  (Gen.V2_of m (Run.outsA m) c main_arg0 (by decide)).trans <| (Gen.V1_of m (Run.outsA m) c main_arg0 (by decide)).trans rfl

/-- P as the second region is entered with it is P as launched. -/
theorem P_eq (c : Dev nD) : Run.Vin1 m c main_arg1 = m ((c.tc : Thread nD τ).loc main_arg1) :=
  (Gen.V2_of m (Run.outsA m) c main_arg1 (by decide)).trans <| (Gen.V1_of m (Run.outsA m) c main_arg1 (by decide)).trans rfl

/-- The rescaling row the second region is entered with is what the first region left: the rescaling row of P. -/
theorem d_eq (c : Dev nD) :
    (Run.Vin1 m c main_v0 : S1x2048.Idx → EReal) = Cert.Spec.scaleRow (m ((c.tc : Thread nD τ).loc main_arg1)) := by
  have e : Run.Vin1 m c main_v0 = Run.dOut m c := by
    refine (Gen.V2_of m (Run.outsA m) c main_v0 (by decide)).trans ?_
    rw [Run.V1A_eq, Function.update_self]
  rw [e]
  exact GramValue.scale_row (Run.Vin0 m) c

/-- The result buffer after the run holds the specification's result of the launch contents of x, P and the bias. -/
theorem result_eq (c : Dev nD) :
    (Run.yOut m c : S32768x2048.Idx → EReal)
      = Cert.Spec.result (m ((c.tc : Thread nD τ).loc main_arg0)) (m ((c.tc : Thread nD τ).loc main_arg1))
          (m ((c.tc : Thread nD τ).loc main_arg2)) := by
  unfold Cert.Spec.result
  rw [← bias_row m c, ← d_eq m c]
  have h := ScaledValue.affine_rows (Run.Vin1 m) c
  rw [x_eq m c, P_eq m c] at h
  exact h

end Cert.KernelIdeal.KernelValue

end
-- ==== Proof.RsqrtLaw.lean ====
/-
  The one law that joins the two programs: on the nonnegative extended reals, y^(-1/2) is 1 / √y.
  At +∞ both are 0, at 0 both are +∞, at a positive real both are (√y)⁻¹; they differ only below zero, where the
  reciprocal square root is undefined and 1 / √y reads 0. A column norm is a sum of absolute values, so it is
  nonnegative whatever the entries are, and ε is a positive number: the argument the programs take the root of is
  never below zero, and no finiteness of the inputs is needed.
-/
import proofs.«172815_j51582557225235_1_alg».proof.Proof.Spec

noncomputable section

open scoped BigOperators

namespace Cert.Spec

open Idealize.ShloMosaic Idealize.ShloMosaic.ValueIdx

/-- The word 0x3F800000 is the number 1. -/
theorem one_word : Ideal.ofBits .f32 0x3F800000#32 = (1 : EReal) := by
  simp [Ideal.ofBits, Ideal.ieee, -EReal.coe_mul]; norm_num

/-- ε is nonnegative. -/
theorem eps_nonneg : (0 : EReal) ≤ eps := by
  unfold eps
  simp [Ideal.ofBits, Ideal.ieee, -EReal.coe_mul]

/-- An absolute value on the extended reals is nonnegative. -/
theorem abs_nonneg' (y : EReal) : (0 : EReal) ≤ max y (-y) := by
  rcases le_total 0 y with h | h
  · exact le_max_of_le_left h
  · exact le_max_of_le_right (EReal.neg_nonneg.mpr h)

/-- A column norm is nonnegative. -/
theorem colNorm_nonneg (P : SP.Idx → EReal) (k : Fin 2048) : (0 : EReal) ≤ colNorm P k := by
  unfold colNorm
  exact Finset.sum_nonneg (fun a _ => abs_nonneg' _)

/-- On the nonnegative extended reals the reciprocal square root is one over the square root. -/
theorem rsqrt_eq_one_div_sqrt {y : EReal} (hy : 0 ≤ y) : Ideal.rsqrt y = Ideal.div 1 (Ideal.sqrt y) := by
  induction y using EReal.rec with
  | bot => exact absurd hy (by simp)
  | coe r =>
    have hr : 0 ≤ r := EReal.coe_nonneg.mp hy
    rcases hr.eq_or_lt with h | h
    · subst h
      rw [Ideal.rsqrt_coe, Ideal.sqrt_coe]
      simp [Ideal.div]
    · have hs : Real.sqrt r ≠ 0 := (Real.sqrt_pos.mpr h).ne'
      have hs' : ((Real.sqrt r : ℝ) : EReal) ≠ 0 := by
        rw [Ne, EReal.coe_eq_zero]; exact hs
      rw [Ideal.rsqrt_coe, Ideal.sqrt_coe, if_neg (not_lt.mpr hr), if_neg (not_lt.mpr hr), if_neg h.ne',
        Ideal.div, if_neg hs', one_mul, EReal.coe_inv]
  | top =>
    rw [Ideal.rsqrt_top, Ideal.sqrt_top, Ideal.div, if_neg (by simp), EReal.inv_top, mul_zero]

/-- The rescaling in the reference's spelling. -/
theorem scale_eq (P : SP.Idx → EReal) (k : Fin 2048) :
    scale P k = Ideal.div (Ideal.ofBits .f32 0x3F800000#32) (Ideal.sqrt (colNorm P k + eps)) := by
  unfold scale
  rw [rsqrt_eq_one_div_sqrt (add_nonneg (colNorm_nonneg P k) eps_nonneg), one_word]

end Cert.Spec

end
-- ==== Proof.RefValue.lean ====
/-
  The reference at the ideal instance is the specification. Its last stage, read at an index (b, o) one operation at a
  time, is Σ_k x[b,k]·(P[o,k]·(1 / √(Σ_a |Σ_j P[j,a]·P[j,k]| + ε))) + bias[o]: the two transposes swap coordinates, the
  two products are plain sums over the contracted axis, the reduction over axis 0 from a zero word is the column sum,
  the broadcasts read a row or a scalar. The rescaling 1 / √y is y^(-1/2) because y is never below zero.
-/
import proofs.«172815_j51582557225235_1_alg».proof.Proof.Gen.ReferenceIdeal.Run
import proofs.«172815_j51582557225235_1_alg».proof.Proof.Gen.ReferenceIdeal.Read
import proofs.«172815_j51582557225235_1_alg».proof.Proof.Spec
import proofs.«172815_j51582557225235_1_alg».proof.Proof.RsqrtLaw
import proofs.«172815_j51582557225235_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The Gram entry: (PᵀP)[a,k] = Σ_j P[j,a]·P[j,k]. -/
theorem gram_eq (x1 : (⟨S2048x2048, .f32⟩ : BufTy).Contents (Elt Ideal)) (a k : Fin 2048) :
    val_main_v1 (F := Ideal) x1 (ix2 a k) = Cert.Spec.gram x1 a k := by
  rw [val_main_v1_apply]
  unfold Cert.Spec.gram
  refine Finset.sum_congr rfl fun j _ => ?_
  rw [val_main_v0_apply]
  have e1 : idx_main_v0 (lidx_main_v1 (ix2 a k) j) = ix2 j a :=
    funext fun c => Fin.ext (by match c with | ⟨0, _⟩ => rfl | ⟨1, _⟩ => rfl)
  have e2 : ridx_main_v1 (ix2 a k) j = ix2 j k :=
    funext fun c => Fin.ext (by match c with | ⟨0, _⟩ => rfl | ⟨1, _⟩ => rfl)
  rw [e1, e2]

/-- The column norm: the reduction over axis 0 from the zero word is Σ_a |(PᵀP)[a,k]|. -/
theorem colNorm_eq (x1 : (⟨S2048x2048, .f32⟩ : BufTy).Contents (Elt Ideal)) (k : Fin 2048) :
    val_main_v3 (F := Ideal) x1 (ix1 k) = Cert.Spec.colNorm x1 k := by
  rw [val_main_v3_apply, val_main_cst_apply]
  unfold Cert.Spec.colNorm
  have hz : (FloatOps.ofBits .f32 0x00000000#32 : Ideal .f32) = 0 := Ideal.ofBits_zero_f32
  rw [hz, zero_add]
  refine Finset.sum_congr rfl fun a _ => ?_
  have e : idx_main_v3 (ix1 k) a = ix2 a k :=
    funext fun c => Fin.ext (by match c with | ⟨0, _⟩ => rfl | ⟨1, _⟩ => rfl)
  rw [e, val_main_v2_apply, gram_eq]
  rfl

/-- The rescaling at k: 1 / √(s[k] + ε). -/
theorem scale_eq (x1 : (⟨S2048x2048, .f32⟩ : BufTy).Contents (Elt Ideal)) (k : Fin 2048) :
    val_main_v8 (F := Ideal) x1 (ix1 k) = Cert.Spec.scale x1 k := by
  rw [Cert.Spec.scale_eq, val_main_v8_apply, val_main_v7_apply, val_main_cst_1_apply, val_main_v6_apply,
    val_main_v5_apply, val_main_v4_apply, val_main_cst_0_apply, colNorm_eq]
  rfl

/-- The rescaled matrix after the transpose, at (k, o): P[o,k]·d[k]. -/
theorem scaled_eq (x1 : (⟨S2048x2048, .f32⟩ : BufTy).Contents (Elt Ideal)) (k o : Fin 2048) :
    val_main_v12 (F := Ideal) x1 (ix2 k o) = x1 (ix2 o k) * Cert.Spec.scale x1 k := by
  rw [val_main_v12_apply, val_main_v11_apply, val_main_v10_apply, val_main_v9_apply]
  have e1 : idx_main_v12 (ix2 k o) = ix2 o k :=
    funext fun c => Fin.ext (by match c with | ⟨0, _⟩ => rfl | ⟨1, _⟩ => rfl)
  have e2 : idx_main_v9 (idx_main_v10 (ix2 o k)) = ix1 k :=
    funext fun c => Fin.ext (by match c with | ⟨0, _⟩ => rfl)
  rw [e1, e2, scale_eq]
  rfl

/-- The bias row broadcast over the rows, at (b, o): bias[o]. -/
theorem bias_eq (x2 : (⟨S2048, .f32⟩ : BufTy).Contents (Elt Ideal)) (b : Fin 32768) (o : Fin 2048) :
    val_main_v15 (F := Ideal) x2 (ix2 b o) = x2 (ix1 o) := by
  rw [val_main_v15_apply, val_main_v14_apply]
  have e : idx_main_v14 (idx_main_v15 (ix2 b o)) = ix1 o :=
    funext fun c => Fin.ext (by match c with | ⟨0, _⟩ => rfl)
  rw [e]

/-- The reference's last stage, as a function of the three argument arrays, is the specification's result. -/
theorem result_eq (x0 : (⟨S32768x2048, .f32⟩ : BufTy).Contents (Elt Ideal)) (x1 : (⟨S2048x2048, .f32⟩ : BufTy).Contents (Elt Ideal))
    (x2 : (⟨S2048, .f32⟩ : BufTy).Contents (Elt Ideal)) :
    val_main_v16 (F := Ideal) x0 x1 x2 = Cert.Spec.result x0 x1 x2 := by
  funext i
  obtain ⟨b, o, rfl⟩ : ∃ (b : Fin 32768) (o : Fin 2048), i = ix2 b o := ⟨i 0, i 1, eq_ix2 i⟩
  rw [val_main_v16_apply, val_main_v13_apply, bias_eq]
  unfold Cert.Spec.result Cert.Spec.affine Cert.Spec.scaleRow Cert.Spec.biasRow
  refine congrArg₂ (· + ·) (Finset.sum_congr rfl fun k _ => ?_) rfl
  have e1 : lidx_main_v13 (ix2 b o) k = ix2 b k :=
    funext fun c => Fin.ext (by match c with | ⟨0, _⟩ => rfl | ⟨1, _⟩ => rfl)
  have e2 : ridx_main_v13 (ix2 b o) k = ix2 k o :=
    funext fun c => Fin.ext (by match c with | ⟨0, _⟩ => rfl | ⟨1, _⟩ => rfl)
  rw [e1, e2, scaled_eq]

end Cert.ReferenceIdeal.RefValue

end
-- ==== Proof.lean ====
/-
  The kernel (an AOL-normalised linear layer in two Pallas kernels) against its jnp reference, over the extended reals.

  Both compute  out[b,o] = Σ_k x[b,k]·(P[o,k]·d[k]) + bias[o]  with  d[k] = (Σ_a |Σ_j P[j,a]·P[j,k]| + ε)^(-1/2):
  the kernel's first region writes d block by block as a reciprocal square root, its second region forms the product
  row block by row block; the reference writes d as 1 / √(·). The two agree because the argument of the root, a sum of
  absolute values plus a positive ε, is never below zero, where y^(-1/2) = 1 / √y on the extended reals (also at 0 and
  at +∞); no finiteness of the inputs is used. Every other step is the same sum in the same order on both sides: a
  matrix product into a zero accumulator is the contraction sum, a lane sum from a zero word the column sum, a change of
  float format the identity.

  The frames: each program's run (the kernel's two regions composed with the host reshape between them, at the
  word-level instance and at the ideal one; the reference's host operations one after the other) terminates without a
  fault and leaves the three arguments as launched. The idealization rewrote nothing, so `preserves` is trivial.
-/
import proofs.«172815_j51582557225235_1_alg».proof.Defs
import proofs.«172815_j51582557225235_1_alg».proof.Proof.Gen.Kernel
import proofs.«172815_j51582557225235_1_alg».proof.Proof.Gen.KernelIdeal
import proofs.«172815_j51582557225235_1_alg».proof.Proof.Gen.ReferenceIdeal
import proofs.«172815_j51582557225235_1_alg».proof.Proof.Gen.Pre_finite_inputs
import proofs.«172815_j51582557225235_1_alg».proof.Proof.Gen.ReferenceIdeal.Run
import proofs.«172815_j51582557225235_1_alg».proof.Proof.Gen.ReferenceIdeal.Read
import proofs.«172815_j51582557225235_1_alg».proof.Proof.KernelRun
import proofs.«172815_j51582557225235_1_alg».proof.Proof.KernelRunBits
import proofs.«172815_j51582557225235_1_alg».proof.Proof.KernelValue
import proofs.«172815_j51582557225235_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ =>
  (θ_run Cert.Kernel.defs _ _).mono (fun _ h c => (h c).2) (Cert.Kernel.Run.run_main (F := Bits) m ρ)

/-- So does the idealized kernel program. -/
theorem frame_kernelIdeal : Cert.frame_KernelIdeal := fun m ρ _ =>
  (θ_run Cert.KernelIdeal.defs _ _).mono (fun _ h c => (h c).2) (Cert.KernelIdeal.Run.run_main (F := Ideal) m ρ)

/-- And the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, P and the bias, the idealized kernel and the idealized reference both end with the
    result buffer at the specification's result of those three arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KernelValue.result_eq m c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v16_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
